-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S6400000 : Shape := ⟨1, ![6400000]⟩
abbrev S5x5 : Shape := ⟨2, ![5, 5]⟩
abbrev S5 : Shape := ⟨1, ![5]⟩
abbrev S5x10 : Shape := ⟨2, ![5, 10]⟩
abbrev S10 : Shape := ⟨1, ![10]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  bcast_S_S5x10 : S_.BroadcastsInDim S5x10 (![] : Fin 0 → Fin S5x10.rank)
  reducesTo_S5x10_S_d0_1 : S5x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S5x10 .f32) (main_arg7 : FVec F S5x10 .f32) (main_arg8 : FVec F S10 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x10 .f32 := Host.absf main_arg6
  let main_cst_6 : FVec F S_ .f32 := constant S_ .f32 0x7F800000#32
  let main_v20 : FVec F S5x10 .f32 := broadcastInDim S5x10 ![] bcast_S_S5x10 main_cst_6
  let main_v21 : IVec S5x10 1 := cmpf .olt main_v19 main_v20
  let main_c_7 : IVec S_ 1 := constantI S_ 1 1#1
  let main_v22 : IVec S_ 1 := (fun x v => Host.reduce IntOp.andi x v reducesTo_S5x10_S_d0_1 h_S_) main_v21 main_c_7
  let main_v23 : IVec S_ 1 := andi main_v18 main_v22
  let main_v24 : FVec F S5x10 .f32 := Host.absf main_arg7
  let main_cst_8 : FVec F S_ .f32 := constant S_ .f32 0x7F800000#32
  let main_v25 : FVec F S5x10 .f32 := broadcastInDim S5x10 ![] bcast_S_S5x10 main_cst_8
  let main_v26 : IVec S5x10 1 := cmpf .olt main_v24 main_v25
  let main_c_9 : IVec S_ 1 := constantI S_ 1 1#1
  let main_v27 : IVec S_ 1 := (fun x v => Host.reduce IntOp.andi x v reducesTo_S5x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x5 .f32) (main_arg1 : IVec S6400000 32) (main_arg2 : IVec S6400000 32) (main_arg3 : FVec F S5x5 .f32) (main_arg4 : FVec F S5x5 .f32) (main_arg5 : FVec F S5 .f32) (main_arg6 : FVec F S5x10 .f32) (main_arg7 : FVec F S5x10 .f32) (main_arg8 : FVec F S10 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x5 .f32 := Host.absf main_arg3
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  let main_v9 : FVec F S5x5 .f32 := Host.absf main_arg4
  let main_cst_2 : FVec F S_ .f32 := constant S_ .f32 0x7F800000#32
  let main_v10 : FVec F S5x5 .f32 := broadcastInDim S5x5 ![] bcast_S_S5x5 main_cst_2
  let main_v11 : IVec S5x5 1 := cmpf .olt main_v9 main_v10
  let main_c_3 : IVec S_ 1 := constantI S_ 1 1#1
  let main_v12 : IVec S_ 1 := (fun x v => Host.reduce IntOp.andi x v reducesTo_S5x5_S_d0_1 h_S_) main_v11 main_c_3
  let main_v13 : IVec S_ 1 := andi main_v8 main_v12
  let main_v14 : FVec F S5 .f32 := Host.absf main_arg5
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg6 main_arg7 main_arg8 main_v13 main_v16
-- ==== Kernel.lean ====
abbrev S100000x5 : Shape := ⟨2, ![100000, 5]⟩
abbrev S6400000 : Shape := ⟨1, ![6400000]⟩
abbrev S5x5 : Shape := ⟨2, ![5, 5]⟩
abbrev S5 : Shape := ⟨1, ![5]⟩
abbrev S5x10 : Shape := ⟨2, ![5, 10]⟩
abbrev S10 : Shape := ⟨1, ![10]⟩
abbrev S_ : Shape := ⟨0, ![]⟩
abbrev S100000 : Shape := ⟨1, ![100000]⟩
abbrev S6400000x1 : Shape := ⟨2, ![6400000, 1]⟩
abbrev S6400000x5 : Shape := ⟨2, ![6400000, 5]⟩
abbrev S100000x1 : Shape := ⟨2, ![100000, 1]⟩
abbrev S1x5 : Shape := ⟨2, ![1, 5]⟩
abbrev S10000x5 : Shape := ⟨2, ![10000, 5]⟩
abbrev S1x10 : Shape := ⟨2, ![1, 10]⟩
abbrev S100000x10 : Shape := ⟨2, ![100000, 10]⟩
abbrev S10000x10 : Shape := ⟨2, ![10000, 10]⟩

abbrev nBuf : Space → Nat
  | .hbm => 57
  | .vmem => 18
  | .smem => 0
  | _ => 0

abbrev bufTy : (tb : Table) → Fin (tcTables nBuf tb) → BufTy
  | .hbm, ⟨0, _⟩ => ⟨S100000x5, .f32⟩
  | .hbm, ⟨1, _⟩ => ⟨S6400000, .i32⟩
  | .hbm, ⟨2, _⟩ => ⟨S6400000, .i32⟩
  | .hbm, ⟨3, _⟩ => ⟨S5x5, .f32⟩
  | .hbm, ⟨4, _⟩ => ⟨S5x5, .f32⟩
  | .hbm, ⟨5, _⟩ => ⟨S5, .f32⟩
  | .hbm, ⟨6, _⟩ => ⟨S5x10, .f32⟩
  | .hbm, ⟨7, _⟩ => ⟨S5x10, .f32⟩
  | .hbm, ⟨8, _⟩ => ⟨S10, .f32⟩
  | .hbm, ⟨9, _⟩ => ⟨S_, .f32⟩
  | .hbm, ⟨10, _⟩ => ⟨S6400000, .f32⟩
  | .hbm, ⟨11, _⟩ => ⟨S_, .f32⟩
  | .hbm, ⟨12, _⟩ => ⟨S100000, .f32⟩
  | .hbm, ⟨13, _⟩ => ⟨S6400000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S6400000, .i32⟩
  | .hbm, ⟨23, _⟩ => ⟨S6400000, .i1⟩
  | .hbm, ⟨24, _⟩ => ⟨S_, .i32⟩
  | .hbm, ⟨25, _⟩ => ⟨S6400000, .i32⟩
  | .hbm, ⟨26, _⟩ => ⟨S6400000, .i32⟩
  | .hbm, ⟨27, _⟩ => ⟨S6400000, .i32⟩
  | .hbm, ⟨28, _⟩ => ⟨S6400000x1, .i32⟩
  | .hbm, ⟨29, _⟩ => ⟨S6400000x5, .f32⟩
  | .hbm, ⟨30, _⟩ => ⟨S_, .f32⟩
  | .hbm, ⟨31, _⟩ => ⟨S100000x5, .f32⟩
  | .hbm, ⟨32, _⟩ => ⟨S6400000x1, .i32⟩
  | .hbm, ⟨33, _⟩ => ⟨S100000x5, .f32⟩
  | .hbm, ⟨34, _⟩ => ⟨S100000x1, .f32⟩
  | .hbm, ⟨35, _⟩ => ⟨S100000x5, .f32⟩
  | .hbm, ⟨36, _⟩ => ⟨S100000x5, .f32⟩
  | .hbm, ⟨37, _⟩ => ⟨S1x5, .f32⟩
  | .hbm, ⟨38, _⟩ => ⟨S100000x5, .f32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S6400000x1, .i32⟩
  | .hbm, ⟨47, _⟩ => ⟨S6400000x5, .f32⟩
  | .hbm, ⟨48, _⟩ => ⟨S_, .f32⟩
  | .hbm, ⟨49, _⟩ => ⟨S100000x5, .f32⟩
  | .hbm, ⟨50, _⟩ => ⟨S6400000x1, .i32⟩
  | .hbm, ⟨51, _⟩ => ⟨S100000x5, .f32⟩
  | .hbm, ⟨52, _⟩ => ⟨S100000x1, .f32⟩
  | .hbm, ⟨53, _⟩ => ⟨S100000x5, .f32⟩
  | .hbm, ⟨54, _⟩ => ⟨S100000x5, .f32⟩
  | .hbm, ⟨55, _⟩ => ⟨S1x10, .f32⟩
  | .hbm, ⟨56, _⟩ => ⟨S100000x10, .f32⟩
  | .local _ .vmem, ⟨0, _⟩ => ⟨S10000x5, .f32⟩
  | .local _ .vmem, ⟨1, _⟩ => ⟨S10000x5, .f32⟩
  | .local _ .vmem, ⟨2, _⟩ => ⟨S10000x5, .f32⟩
  | .local _ .vmem, ⟨3, _⟩ => ⟨S10000x5, .f32⟩
  | .local _ .vmem, ⟨4, _⟩ => ⟨S5x5, .f32⟩
  | .local _ .vmem, ⟨5, _⟩ => ⟨S5x5, .f32⟩
  | .local _ .vmem, ⟨6, _⟩ => ⟨S1x5, .f32⟩
  | .local _ .vmem, ⟨7, _⟩ => ⟨S10000x5, .f32⟩
  | .local _ .vmem, ⟨8, _⟩ => ⟨S10000x5, .f32⟩
  | .local _ .vmem, ⟨9, _⟩ => ⟨S10000x5, .f32⟩
  | .local _ .vmem, ⟨10, _⟩ => ⟨S10000x5, .f32⟩
  | .local _ .vmem, ⟨11, _⟩ => ⟨S10000x5, .f32⟩
  | .local _ .vmem, ⟨12, _⟩ => ⟨S10000x5, .f32⟩
  | .local _ .vmem, ⟨13, _⟩ => ⟨S5x10, .f32⟩
  | .local _ .vmem, ⟨14, _⟩ => ⟨S5x10, .f32⟩
  | .local _ .vmem, ⟨15, _⟩ => ⟨S1x10, .f32⟩
  | .local _ .vmem, ⟨16, _⟩ => ⟨S10000x10, .f32⟩
  | .local _ .vmem, ⟨17, _⟩ => ⟨S10000x10, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x10 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S100000x5 : S_.BroadcastsInDim S100000x5 (![] : Fin 0 → Fin S100000x5.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  shapeCasts_S5_S1x5 : S5.ShapeCasts S1x5
  inb_S10000x5_S10000x5_0_0 : ∀ a, (![0, 0] : Fin 2 → Nat) a + S10000x5.size a ≤ S10000x5.size a
  h_S10000x5 : 0 < S10000x5.numel
  bitsLt_bf16_f32 : FTy.bits .bf16 < FTy.bits .f32
  shapeCasts_S10000x5_S10000x5 : S10000x5.ShapeCasts S10000x5
  inb_S5x5_S5x5_0_0 : ∀ a, (![0, 0] : Fin 2 → Nat) a + S5x5.size a ≤ S5x5.size a
  h_S5x5 : 0 < S5x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  shapeCasts_S10_S1x10 : S10.ShapeCasts S1x10
  inb_S5x10_S5x10_0_0 : ∀ a, (![0, 0] : Fin 2 → Nat) a + S5x10.size a ≤ S5x10.size a
  h_S5x10 : 0 < S5x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  scatter_S100000_S6400000x1_S6400000_n_0_0_1_wf : ScatterDims.WF S100000 S6400000x1 S6400000 [] [0] [0] 1
  gather_S100000x5_S6400000x1_S6400000x5_1_0_n_n_0_1_15_wf : GatherDims.WF S100000x5 S6400000x1 S6400000x5 [1] [0] [] [0] [] 1 ![1, 5]
  scatter_S100000x5_S6400000x1_S6400000x5_1_0_0_1_wf : ScatterDims.WF S100000x5 S6400000x1 S6400000x5 [1] [0] [0] 1
  dot_S10000x5_S5x5_S10000x5_1_0_0_1_n_n_wf : DotDims.WF S10000x5 S5x5 S10000x5 [1] [0] [0] [1] [] []
  dot_S10000x5_S5x10_S10000x10_1_0_0_1_n_n_wf : DotDims.WF S10000x5 S5x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .f32 = 32 ∨ (Rect.block (s := S100000x5) S10000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x5.size a ≤ S100000x5.size a
  hwx0_1 : ∀ i : grid0.Coords, EltTy.bits .f32 = 32 ∨ (Rect.block (s := S100000x5) S10000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x5.size a ≤ S5x5.size a
  hwx0_2 : ∀ i : grid0.Coords, EltTy.bits .f32 = 32 ∨ (Rect.block (s := S5x5) S5x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x5.size a ≤ S5x5.size a
  hwx0_3 : ∀ i : grid0.Coords, EltTy.bits .f32 = 32 ∨ (Rect.block (s := S5x5) S5x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x5.size a ≤ S1x5.size a
  hwx0_4 : ∀ i : grid0.Coords, EltTy.bits .f32 = 32 ∨ (Rect.block (s := S1x5) S1x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x5.size a ≤ S100000x5.size a
  hwx0_5 : ∀ i : grid0.Coords, EltTy.bits .f32 = 32 ∨ (Rect.block (s := S100000x5) S10000x5.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x5.size a ≤ S100000x5.size a
  hwx1_0 : ∀ i : grid1.Coords, EltTy.bits .f32 = 32 ∨ (Rect.block (s := S100000x5) S10000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x5.size a ≤ S100000x5.size a
  hwx1_1 : ∀ i : grid1.Coords, EltTy.bits .f32 = 32 ∨ (Rect.block (s := S100000x5) S10000x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x10.size a ≤ S5x10.size a
  hwx1_2 : ∀ i : grid1.Coords, EltTy.bits .f32 = 32 ∨ (Rect.block (s := S5x10) S5x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x10.size a ≤ S5x10.size a
  hwx1_3 : ∀ i : grid1.Coords, EltTy.bits .f32 = 32 ∨ (Rect.block (s := S5x10) S5x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x10.size a ≤ S100000x10.size a
  hwx1_5 : ∀ i : grid1.Coords, EltTy.bits .f32 = 32 ∨ (Rect.block (s := S100000x10) S10000x10.size (cc1_transform_5 i) (hinb1_5 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x5_S6400000x1_S6400000x5_1_0_n_n_0_1_15 : GatherDims S100000x5 S6400000x1 S6400000x5 where
  offsetDims := [1]
  collapsedSliceDims := [0]
  operandBatchingDims := []
  startIndicesBatchingDims := []
  startIndexMap := [0]
  indexVectorDim := 1
  sliceSizes := ![1, 5]
  wf := gather_S100000x5_S6400000x1_S6400000x5_1_0_n_n_0_1_15_wf
def scatter_S100000x5_S6400000x1_S6400000x5_1_0_0_1 : ScatterDims S100000x5 S6400000x1 S6400000x5 where
  updateWindowDims := [1]
  insertedWindowDims := [0]
  scatterDimsToOperandDims := [0]
  indexVectorDim := 1
  wf := scatter_S100000x5_S6400000x1_S6400000x5_1_0_0_1_wf
def dot_S10000x5_S5x5_S10000x5_1_0_0_1_n_n : DotDims S10000x5 S5x5 S10000x5 where
  lhsContracting := [1]
  rhsContracting := [0]
  lhsNonContracting := [0]
  rhsNonContracting := [1]
  lhsBatch := []
  rhsBatch := []
  wf := dot_S10000x5_S5x5_S10000x5_1_0_0_1_n_n_wf
def dot_S10000x5_S5x10_S10000x10_1_0_0_1_n_n : DotDims S10000x5 S5x10 S10000x10 where
  lhsContracting := [1]
  rhsContracting := [0]
  lhsNonContracting := [0]
  rhsNonContracting := [1]
  lhsBatch := []
  rhsBatch := []
  wf := dot_S10000x5_S5x10_S10000x10_1_0_0_1_n_n_wf

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S5x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S10000x5.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S10000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S5x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S5x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x10.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x5 : Shape := ⟨2, ![100000, 5]⟩
abbrev S6400000 : Shape := ⟨1, ![6400000]⟩
abbrev S5x5 : Shape := ⟨2, ![5, 5]⟩
abbrev S5 : Shape := ⟨1, ![5]⟩
abbrev S5x10 : Shape := ⟨2, ![5, 10]⟩
abbrev S10 : Shape := ⟨1, ![10]⟩
abbrev S_ : Shape := ⟨0, ![]⟩
abbrev S6400000x1 : Shape := ⟨2, ![6400000, 1]⟩
abbrev S6400000x5 : Shape := ⟨2, ![6400000, 5]⟩
abbrev S100000 : Shape := ⟨1, ![100000]⟩
abbrev S100000x1 : Shape := ⟨2, ![100000, 1]⟩
abbrev S1x5 : Shape := ⟨2, ![1, 5]⟩
abbrev S100000x10 : Shape := ⟨2, ![100000, 10]⟩
abbrev S1x10 : Shape := ⟨2, ![1, 10]⟩

abbrev nBuf : Space → Nat
  | .hbm => 87
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S6400000, .i32⟩
  | .hbm, ⟨2, _⟩ => ⟨S6400000, .i32⟩
  | .hbm, ⟨3, _⟩ => ⟨S5x5, .f32⟩
  | .hbm, ⟨4, _⟩ => ⟨S5x5, .f32⟩
  | .hbm, ⟨5, _⟩ => ⟨S5, .f32⟩
  | .hbm, ⟨6, _⟩ => ⟨S5x10, .f32⟩
  | .hbm, ⟨7, _⟩ => ⟨S5x10, .f32⟩
  | .hbm, ⟨8, _⟩ => ⟨S10, .f32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000x5, .f32⟩
  | .hbm, ⟨18, _⟩ => ⟨S_, .f32⟩
  | .hbm, ⟨19, _⟩ => ⟨S100000x5, .f32⟩
  | .hbm, ⟨20, _⟩ => ⟨S6400000x1, .i32⟩
  | .hbm, ⟨21, _⟩ => ⟨S100000x5, .f32⟩
  | .hbm, ⟨22, _⟩ => ⟨S_, .f32⟩
  | .hbm, ⟨23, _⟩ => ⟨S6400000, .f32⟩
  | .hbm, ⟨24, _⟩ => ⟨S_, .f32⟩
  | .hbm, ⟨25, _⟩ => ⟨S100000, .f32⟩
  | .hbm, ⟨26, _⟩ => ⟨S6400000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x5, .f32⟩
  | .hbm, ⟨33, _⟩ => ⟨S100000x5, .f32⟩
  | .hbm, ⟨34, _⟩ => ⟨S100000x5, .f32⟩
  | .hbm, ⟨35, _⟩ => ⟨S100000x5, .f32⟩
  | .hbm, ⟨36, _⟩ => ⟨S100000x5, .f32⟩
  | .hbm, ⟨37, _⟩ => ⟨S1x5, .f32⟩
  | .hbm, ⟨38, _⟩ => ⟨S100000x5, .f32⟩
  | .hbm, ⟨39, _⟩ => ⟨S100000x5, .f32⟩
  | .hbm, ⟨40, _⟩ => ⟨S100000x5, .f32⟩
  | .hbm, ⟨41, _⟩ => ⟨S100000x5, .f32⟩
  | .hbm, ⟨42, _⟩ => ⟨S_, .f32⟩
  | .hbm, ⟨43, _⟩ => ⟨S100000x5, .f32⟩
  | .hbm, ⟨44, _⟩ => ⟨S100000x5, .f32⟩
  | .hbm, ⟨45, _⟩ => ⟨S_, .f32⟩
  | .hbm, ⟨46, _⟩ => ⟨S100000x5, .f32⟩
  | .hbm, ⟨47, _⟩ => ⟨S100000x5, .f32⟩
  | .hbm, ⟨48, _⟩ => ⟨S_, .i32⟩
  | .hbm, ⟨49, _⟩ => ⟨S6400000, .i32⟩
  | .hbm, ⟨50, _⟩ => ⟨S6400000, .i1⟩
  | .hbm, ⟨51, _⟩ => ⟨S_, .i32⟩
  | .hbm, ⟨52, _⟩ => ⟨S6400000, .i32⟩
  | .hbm, ⟨53, _⟩ => ⟨S6400000, .i32⟩
  | .hbm, ⟨54, _⟩ => ⟨S6400000, .i32⟩
  | .hbm, ⟨55, _⟩ => ⟨S6400000x1, .i32⟩
  | .hbm, ⟨56, _⟩ => ⟨S6400000x5, .f32⟩
  | .hbm, ⟨57, _⟩ => ⟨S_, .f32⟩
  | .hbm, ⟨58, _⟩ => ⟨S100000x5, .f32⟩
  | .hbm, ⟨59, _⟩ => ⟨S6400000x1, .i32⟩
  | .hbm, ⟨60, _⟩ => ⟨S100000x5, .f32⟩
  | .hbm, ⟨61, _⟩ => ⟨S_, .f32⟩
  | .hbm, ⟨62, _⟩ => ⟨S6400000, .f32⟩
  | .hbm, ⟨63, _⟩ => ⟨S_, .f32⟩
  | .hbm, ⟨64, _⟩ => ⟨S100000, .f32⟩
  | .hbm, ⟨65, _⟩ => ⟨S6400000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x5, .f32⟩
  | .hbm, ⟨72, _⟩ => ⟨S100000x5, .f32⟩
  | .hbm, ⟨73, _⟩ => ⟨S100000x10, .f32⟩
  | .hbm, ⟨74, _⟩ => ⟨S100000x10, .f32⟩
  | .hbm, ⟨75, _⟩ => ⟨S100000x10, .f32⟩
  | .hbm, ⟨76, _⟩ => ⟨S1x10, .f32⟩
  | .hbm, ⟨77, _⟩ => ⟨S100000x10, .f32⟩
  | .hbm, ⟨78, _⟩ => ⟨S100000x10, .f32⟩
  | .hbm, ⟨79, _⟩ => ⟨S100000x10, .f32⟩
  | .hbm, ⟨80, _⟩ => ⟨S100000x10, .f32⟩
  | .hbm, ⟨81, _⟩ => ⟨S_, .f32⟩
  | .hbm, ⟨82, _⟩ => ⟨S100000x10, .f32⟩
  | .hbm, ⟨83, _⟩ => ⟨S100000x10, .f32⟩
  | .hbm, ⟨84, _⟩ => ⟨S_, .f32⟩
  | .hbm, ⟨85, _⟩ => ⟨S100000x10, .f32⟩
  | .hbm, ⟨86, _⟩ => ⟨S100000x10, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S100000x5 : S_.BroadcastsInDim S100000x5 (![] : Fin 0 → Fin S100000x5.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x5_0_1 : S100000x1.BroadcastsInDim S100000x5 (![0, 1] : Fin 2 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  gather_S100000x5_S6400000x1_S6400000x5_1_0_n_n_0_1_15_wf : GatherDims.WF S100000x5 S6400000x1 S6400000x5 [1] [0] [] [0] [] 1 ![1, 5]
  scatter_S100000x5_S6400000x1_S6400000x5_1_0_0_1_wf : ScatterDims.WF S100000x5 S6400000x1 S6400000x5 [1] [0] [0] 1
  scatter_S100000_S6400000x1_S6400000_n_0_0_1_wf : ScatterDims.WF S100000 S6400000x1 S6400000 [] [0] [0] 1
  dot_S100000x5_S5x5_S100000x5_1_0_0_1_n_n_wf : DotDims.WF S100000x5 S5x5 S100000x5 [1] [0] [0] [1] [] []
  dot_S100000x5_S5x10_S100000x10_1_0_0_1_n_n_wf : DotDims.WF S100000x5 S5x10 S100000x10 [1] [0] [0] [1] [] []

variable [Facts₀]

def gather_S100000x5_S6400000x1_S6400000x5_1_0_n_n_0_1_15 : GatherDims S100000x5 S6400000x1 S6400000x5 where
  offsetDims := [1]
  collapsedSliceDims := [0]
  operandBatchingDims := []
  startIndicesBatchingDims := []
  startIndexMap := [0]
  indexVectorDim := 1
  sliceSizes := ![1, 5]
  wf := gather_S100000x5_S6400000x1_S6400000x5_1_0_n_n_0_1_15_wf
def scatter_S100000x5_S6400000x1_S6400000x5_1_0_0_1 : ScatterDims S100000x5 S6400000x1 S6400000x5 where
  updateWindowDims := [1]
  insertedWindowDims := [0]
  scatterDimsToOperandDims := [0]
  indexVectorDim := 1
  wf := scatter_S100000x5_S6400000x1_S6400000x5_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def dot_S100000x5_S5x5_S100000x5_1_0_0_1_n_n : DotDims S100000x5 S5x5 S100000x5 where
  lhsContracting := [1]
  rhsContracting := [0]
  lhsNonContracting := [0]
  rhsNonContracting := [1]
  lhsBatch := []
  rhsBatch := []
  wf := dot_S100000x5_S5x5_S100000x5_1_0_0_1_n_n_wf
def dot_S100000x5_S5x10_S100000x10_1_0_0_1_n_n : DotDims S100000x5 S5x10 S100000x10 where
  lhsContracting := [1]
  rhsContracting := [0]
  lhsNonContracting := [0]
  rhsNonContracting := [1]
  lhsBatch := []
  rhsBatch := []
  wf := dot_S100000x5_S5x10_S100000x10_1_0_0_1_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.SageSpec.lean ====
/-
  A two-layer mean-aggregating graph network, entry by entry, on the extended reals.

  One layer sends node features X (R rows of K numbers) and neighbour features H (same shape) to
      σ( X·Ws + H·Wn + b ),      σ(z) = 1 / (1 + e^(-z)),
  an R × N array. The neighbour features are a sum over incoming edges divided by the clamped in-degree
  max(deg, 1). A kernel may spell that division as a product with the reciprocal 1 / max(deg, 1), computed
  once; a reference divides directly. On the extended reals the two agree at EVERY value of the sum, because
  the divisor max(deg, 1) is at least one and so is not zero: a / d is a · d⁻¹ and 1 / d is d⁻¹ whenever d ≠ 0.
  No finiteness of any input is used.

  This file fixes the entry function, the whole-array layer, the normalised aggregate, and reads the
  whole-array spellings of both (products into a zero accumulator or dot_general; broadcasts of a bias row,
  of a degree column, of a scalar) at an index.
-/
import proofs.«128190_j67259187855641_1_alg».proof.Proof.LibDenseRows
import Idealize.ShloMosaic.Lib.IdealHost

noncomputable section

namespace Cert.Sage

open Idealize.ShloMosaic Idealize.ShloMosaic.ValueIdx Cert.LibDenseRows

variable {R K N : ℕ}

/-- One entry of a layer: row r of the node features against column n of the self weights, plus row r of the
    neighbour features against column n of the neighbour weights, plus the bias, through the logistic function. -/
def entry (X H : FVec Ideal (Sh2 R K) .f32) (Ws Wn : FVec Ideal (Sh2 K N) .f32) (b : Fin N → EReal)
    (r : Fin R) (n : Fin N) : EReal :=
  Ideal.logistic (((∑ k : Fin K, X (ix2 r k) * Ws (ix2 k n)) + ∑ k : Fin K, H (ix2 r k) * Wn (ix2 k n)) + b n)

/-- The layer as one R × N array. -/
def layer (X H : FVec Ideal (Sh2 R K) .f32) (Ws Wn : FVec Ideal (Sh2 K N) .f32) (b : Fin N → EReal) :
    FVec Ideal (Sh2 R N) .f32 :=
  fun i => entry X H Ws Wn b (i 0) (i 1)

theorem layer_apply (X H : FVec Ideal (Sh2 R K) .f32) (Ws Wn : FVec Ideal (Sh2 K N) .f32) (b : Fin N → EReal)
    (r : Fin R) (n : Fin N) : layer X H Ws Wn b (ix2 r n) = entry X H Ws Wn b r n := rfl

/-- The aggregate divided, row by row, by the clamped degree. -/
def norm (agg : FVec Ideal (Sh2 R K) .f32) (deg : FVec Ideal (Sh1 R) .f32) : FVec Ideal (Sh2 R K) .f32 :=
  fun i => Ideal.div (agg i) (max (deg (ix1 (i 0))) 1)

/-- A product with the reciprocal of a clamped degree is the quotient by it: the clamped degree is at least one,
    so it is not zero, and then a / d = a · d⁻¹ while 1 / d = d⁻¹. -/
theorem mul_recip_clamped (a d : EReal) : a * Ideal.div 1 (max d 1) = Ideal.div a (max d 1) := by
  have h : max d 1 ≠ 0 := ne_of_gt (lt_of_lt_of_le zero_lt_one (le_max_right d 1))
  unfold Ideal.div
  rw [if_neg h, if_neg h, one_mul]

/-! ## Pointwise operations read at an index -/

theorem logistic_apply {s : Shape} {φ : FTy} (v : FVec Ideal s φ) (i : s.Idx) : logistic v i = Ideal.logistic (v i) := rfl
theorem hostNegf_apply {s : Shape} {φ : FTy} (v : FVec Ideal s φ) (i : s.Idx) : Host.negf v i = -(v i) := rfl

/-! ## Broadcasts read at an index -/

/-- A scalar broadcast to any shape reads the scalar everywhere. -/
theorem scalarBcast_apply {α : Type} {t : Shape} (h : Sh0.BroadcastsInDim t ![]) (x : Sh0.Idx → α) (j : t.Idx) :
    broadcastInDim t ![] h x j = x ix0 :=
  broadcastInDim_apply ![] h x j ix0 (fun a => a.elim0)

/-- A length-R vector made a column and then repeated along the rows reads, at (r, k), the vector at r. -/
theorem colRows_apply {α : Type} (v : (Sh1 R).Idx → α)
    (h1 : (Sh1 R).BroadcastsInDim (Sh2 R 1) ![0]) (h2 : (Sh2 R 1).BroadcastsInDim (Sh2 R K) ![0, 1]) (r : Fin R) (k : Fin K) :
    broadcastInDim (Sh2 R K) ![0, 1] h2 (broadcastInDim (Sh2 R 1) ![0] h1 v) (ix2 r k) = v (ix1 r) := by
  rw [broadcastInDim_apply ![0, 1] h2 _ (ix2 r k) (ix2 r (0 : Fin 1)) (fun a => by
    match a with
    | ⟨0, _⟩ =>
      show r.val = if R = 1 then 0 else r.val
      split
      · have := r.isLt; omega
      · rfl
    | ⟨1, _⟩ => rfl)]
  rw [broadcastInDim_apply ![0] h1 v (ix2 r (0 : Fin 1)) (ix1 r) (fun a => by
    match a with
    | ⟨0, _⟩ =>
      show r.val = if R = 1 then 0 else r.val
      split
      · have := r.isLt; omega
      · rfl)]

/-! ## The normalised aggregate in its two spellings -/

/-- The product spelling: the aggregate times the column of reciprocals 1 / max(deg, 1). -/
theorem norm_of_mul (agg : FVec Ideal (Sh2 R K) .f32) (deg : FVec Ideal (Sh1 R) .f32)
    (h0 : Sh0.BroadcastsInDim (Sh1 R) ![])
    (h1 : (Sh1 R).BroadcastsInDim (Sh2 R 1) ![0]) (h2 : (Sh2 R 1).BroadcastsInDim (Sh2 R K) ![0, 1]) :
    mulf agg (broadcastInDim (Sh2 R K) ![0, 1] h2 (broadcastInDim (Sh2 R 1) ![0] h1
      (Host.divf (broadcastInDim (Sh1 R) ![] h0 (constant (F := Ideal) Sh0 .f32 0x3F800000#32))
        (maximumf deg (broadcastInDim (Sh1 R) ![] h0 (constant (F := Ideal) Sh0 .f32 0x3F800000#32))))))
      = norm agg deg := by
  funext i
  obtain ⟨r, k, rfl⟩ : ∃ (r : Fin R) (k : Fin K), i = ix2 r k := ⟨i 0, i 1, eq_ix2 i⟩
  rw [mulf_apply, colRows_apply, ValueIdx.hostDivf_apply, maximumf_apply, scalarBcast_apply, constant_apply, Ideal.ofBits_one_f32]
  exact mul_recip_clamped _ _

/-- The quotient spelling: the aggregate divided by the column of clamped degrees. -/
theorem norm_of_div (agg : FVec Ideal (Sh2 R K) .f32) (deg : FVec Ideal (Sh1 R) .f32)
    (h0 : Sh0.BroadcastsInDim (Sh1 R) ![])
    (h1 : (Sh1 R).BroadcastsInDim (Sh2 R 1) ![0]) (h2 : (Sh2 R 1).BroadcastsInDim (Sh2 R K) ![0, 1]) :
    Host.divf agg (broadcastInDim (Sh2 R K) ![0, 1] h2 (broadcastInDim (Sh2 R 1) ![0] h1
        (maximumf deg (broadcastInDim (Sh1 R) ![] h0 (constant (F := Ideal) Sh0 .f32 0x3F800000#32)))))
      = norm agg deg := by
  funext i
  obtain ⟨r, k, rfl⟩ : ∃ (r : Fin R) (k : Fin K), i = ix2 r k := ⟨i 0, i 1, eq_ix2 i⟩
  rw [ValueIdx.hostDivf_apply, colRows_apply, maximumf_apply, scalarBcast_apply, constant_apply, Ideal.ofBits_one_f32]
  rfl

/-! ## The layer in a host program's spelling -/

/-- Two dot_generals added, the bias made a row and repeated, then the logistic function written out as
    1 / (1 + exp(-z)) over whole arrays: entry by entry this is the layer. -/
theorem layer_of_host (X H : FVec Ideal (Sh2 R K) .f32) (Ws Wn : FVec Ideal (Sh2 K N) .f32) (b : FVec Ideal (Sh1 N) .f32)
    (hs : Sh0.BroadcastsInDim (Sh2 R N) ![])
    (hb1 : (Sh1 N).BroadcastsInDim (Sh2 1 N) ![1]) (hb2 : (Sh2 1 N).BroadcastsInDim (Sh2 R N) ![0, 1]) :
    Host.divf (broadcastInDim (Sh2 R N) ![] hs (constant (F := Ideal) Sh0 .f32 0x3F800000#32))
      (addf (broadcastInDim (Sh2 R N) ![] hs (constant (F := Ideal) Sh0 .f32 0x3F800000#32))
        (Host.exp (Host.negf (addf
          (addf (Host.dotGeneral (DotDims.plain R K N) none X Ws) (Host.dotGeneral (DotDims.plain R K N) none H Wn))
          (broadcastInDim (Sh2 R N) ![0, 1] hb2 (broadcastInDim (Sh2 1 N) ![1] hb1 b))))))
      = layer X H Ws Wn (fun n => b (ix1 n)) := by
  funext i
  obtain ⟨r, n, rfl⟩ : ∃ (r : Fin R) (n : Fin N), i = ix2 r n := ⟨i 0, i 1, eq_ix2 i⟩
  rw [layer_apply, ValueIdx.hostDivf_apply, addf_apply, scalarBcast_apply, constant_apply, Ideal.ofBits_one_f32, hostExp_apply,
    hostNegf_apply, addf_apply, addf_apply, StackMember.dotGeneral_plain_apply, StackMember.dotGeneral_plain_apply, biasRows_apply]
  rfl

/-! ## The layer in a kernel's spelling, on a block of R rows -/

/-- Two block products into zero accumulators added, the one-row bias repeated down the rows, then the logistic
    function: entry by entry this is the layer on the block. A change of float format changes no entry. -/
theorem layer_of_block (X H : FVec Ideal (Sh2 R K) .f32) (Ws Wn : FVec Ideal (Sh2 K N) .f32) (b : FVec Ideal (Sh2 1 N) .f32)
    (hc : FTy.bits .bf16 < FTy.bits .f32) (hb : (Sh2 1 N).Broadcasts (Sh2 R N)) (r : Fin R) (n : Fin N) :
    logistic (addf
        (addf (matmul (DotDims.plain R K N) none (truncf .bf16 X hc) (truncf .bf16 Ws hc) (constant (Sh2 R N) .f32 0x00000000#32))
              (matmul (DotDims.plain R K N) none (truncf .bf16 H hc) (truncf .bf16 Wn hc) (constant (Sh2 R N) .f32 0x00000000#32)))
        (broadcastTo (Sh2 R N) b hb)) (ix2 r n)
      = entry X H Ws Wn (fun n => b (ix2 (0 : Fin 1) n)) r n := by
  rw [logistic_apply, addf_apply, addf_apply, matmul_plain_zero_apply, matmul_plain_zero_apply, broadcastTo_1b_ab_apply]
  rfl

end Cert.Sage
-- ==== Proof.KernelPay.lean ====
/-
  What one grid point of each of the two dense launches stores, entry by entry.

  The body of a launch loads a block of 10000 node rows X, the matching block of neighbour rows H, both weight
  matrices whole and the one-row bias, and stores σ(X·Ws + H·Wn + b) over the block. Read at (p, q) that is the
  layer's entry at row p of the block and column q. A cast of an array to its own shape changes nothing, and
  neither does the change of float format in front of each product.
-/
import proofs.«128190_j67259187855641_1_alg».proof.Proof.Gen.KernelIdeal.Skeleton
import proofs.«128190_j67259187855641_1_alg».proof.Proof.SageSpec
import Idealize.ShloMosaic.Lib.Pipeline.Value

noncomputable section

namespace Cert.KernelIdeal.Pay

open Idealize.ShloMosaic Idealize.ShloMosaic.ValueIdx Cert.KernelIdeal Cert.KernelIdeal.Gen Cert.LibDenseRows

/-- First launch (width 5 to width 5): the stored block at (p, q). -/
theorem pay0_apply (x0 x1 : Vec Ideal S10000x5 .f32) (x2 x3 : Vec Ideal S5x5 .f32) (x4 : Vec Ideal S1x5 .f32)
    (p : Fin 10000) (q : Fin 5) :
    k0_pay1 (F := Ideal) x0 x1 x2 x3 x4 (ix2 p q)
      = Cert.Sage.entry (R := 10000) (K := 5) (N := 5) x0 x1 x2 x3 (fun n => x4 (ix2 (0 : Fin 1) n)) p q := by
  unfold k0_pay1
  simp only [shapeCast_self]
  exact Cert.Sage.layer_of_block (R := 10000) (K := 5) (N := 5) x0 x1 x2 x3 x4 _ _ p q

/-- Second launch (width 5 to width 10): the stored block at (p, q). -/
theorem pay1_apply (x0 x1 : Vec Ideal S10000x5 .f32) (x2 x3 : Vec Ideal S5x10 .f32) (x4 : Vec Ideal S1x10 .f32)
    (p : Fin 10000) (q : Fin 10) :
    k1_pay1 (F := Ideal) x0 x1 x2 x3 x4 (ix2 p q)
      = Cert.Sage.entry (R := 10000) (K := 5) (N := 10) x0 x1 x2 x3 (fun n => x4 (ix2 (0 : Fin 1) n)) p q := by
  unfold k1_pay1
  simp only [shapeCast_self]
  exact Cert.Sage.layer_of_block (R := 10000) (K := 5) (N := 10) x0 x1 x2 x3 x4 _ _ p q

end Cert.KernelIdeal.Pay
-- ==== Proof.KernelBlocks0.lean ====
/-
  From blocks to arrays, for each of the two dense launches, at whatever contents the launch finds.

  A launch walks ten grid points; point t reads rows 10000·t … 10000·t + 9999 of the node features and of the
  neighbour features, reads both weight matrices and the bias row whole, and writes the same rows of its result. What
  it writes at row p of the block is the layer's entry at row 10000·t + p of the whole arrays, so each written block is
  a block of ONE whole-array function, the layer; the ten blocks cover every row (row i lies in block i / 10000), and
  the result array ends holding the layer.
-/
import proofs.«128190_j67259187855641_1_alg».proof.Proof.Gen.KernelIdeal.Frame
import proofs.«128190_j67259187855641_1_alg».proof.Proof.KernelPay
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.LibDenseRows
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's entry on a block of rows is the layer's entry on the whole array at the block's row. -/
theorem entry_of_block {N : ℕ} (X H : FVec Ideal (Sh2 100000 5) .f32) (x0 x1 : FVec Ideal (Sh2 10000 5) .f32)
    (Ws Wn : FVec Ideal (Sh2 5 N) .f32) (b : Fin N → EReal) (p : Fin 10000) (r : Fin 100000)
    (h0 : ∀ k : Fin 5, x0 (ix2 p k) = X (ix2 r k)) (h1 : ∀ k : Fin 5, x1 (ix2 p k) = H (ix2 r k)) (n : Fin N) :
    Cert.Sage.entry x0 x1 Ws Wn b p n = Cert.Sage.entry X H Ws Wn b r n := by
  unfold Cert.Sage.entry
  simp only [h0, h1]

/-! ## The first launch -/

/-- The first launch's result as one array of the arrays the launch finds. -/
def G0 (c : Dev nD) : FVec Ideal S100000x5 .f32 :=
  Cert.Sage.layer (R := 100000) (K := 5) (N := 5) (V c main_arg0) (V c main_v20) (V c main_arg3) (V c main_arg4)
    (fun n => (V c main_v21 : S1x5.Idx → EReal) (ix2 (0 : Fin 1) n))

/-- The printed index maps over the grid: the row blocks move with the point, the weights and the bias stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the whole arrays. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S10000x5) hz, View.ld_unit_zero (S := S5x5) hz, View.ld_unit_zero (S := S1x5) hz]
  funext j
  obtain ⟨p, q, rfl⟩ : ∃ (p : Fin 10000) (q : Fin 5), j = ix2 p q := ⟨j 0, j 1, eq_ix2 j⟩
  show k0_pay1 (iblk0 V c 0 t) (iblk0 V c 1 t) (iblk0 V c 2 t) (iblk0 V c 3 t) (iblk0 V c 4 t) (ix2 p q)
    = G0 V c (((cfg0.win 5).blk t).view.emb (ix2 p q))
  refine (Cert.KernelIdeal.Pay.pay0_apply _ _ _ _ _ p q).trans ?_
  obtain ⟨e00, e01, e10, e11, e20, e21, e30, e31, e40, e41, e50, e51⟩ := idx0 t
  have ht : t.val < 10 := lt_of_lt_of_eq t.isLt N_0
  have hr : t.val * 10000 + p.val < 100000 := by have := p.isLt; omega
  have eW : ((cfg0.win 5).blk t).view.emb (ix2 p q) = ix2 (⟨t.val * 10000 + p.val, hr⟩ : Fin 100000) q := by
    funext a; apply Fin.ext
    match a with
    | ⟨0, _⟩ => show win0_5.index t (0 : Fin 2) * 10000 + 1 * p.val = t.val * 10000 + p.val; omega
    | ⟨1, _⟩ => show win0_5.index t (1 : Fin 2) * 5 + 1 * q.val = q.val; omega
  rw [eW]
  have e2 : (iblk0 V c 2 t : S5x5.Idx → EReal) = V c main_arg3 := by
    funext y
    show V c main_arg3 (((cfg0.win 2).blk t).view.emb y) = V c main_arg3 y
    refine congrArg _ (funext fun a => Fin.ext ?_)
    match a with
    | ⟨0, _⟩ => show win0_2.index t (0 : Fin 2) * 5 + 1 * (y 0).val = (y 0).val; omega
    | ⟨1, _⟩ => show win0_2.index t (1 : Fin 2) * 5 + 1 * (y 1).val = (y 1).val; omega
  have e3 : (iblk0 V c 3 t : S5x5.Idx → EReal) = V c main_arg4 := by
    funext y
    show V c main_arg4 (((cfg0.win 3).blk t).view.emb y) = V c main_arg4 y
    refine congrArg _ (funext fun a => Fin.ext ?_)
    match a with
    | ⟨0, _⟩ => show win0_3.index t (0 : Fin 2) * 5 + 1 * (y 0).val = (y 0).val; omega
    | ⟨1, _⟩ => show win0_3.index t (1 : Fin 2) * 5 + 1 * (y 1).val = (y 1).val; omega
  have e4 : (iblk0 V c 4 t : S1x5.Idx → EReal) = V c main_v21 := by
    funext y
    show V c main_v21 (((cfg0.win 4).blk t).view.emb y) = V c main_v21 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 5 + 1 * (y 1).val = (y 1).val; omega
  rw [e2, e3, e4]
  refine entry_of_block (V c main_arg0) (V c main_v20) (iblk0 V c 0 t) (iblk0 V c 1 t) (V c main_arg3) (V c main_arg4) _ p
    ⟨t.val * 10000 + p.val, hr⟩ (fun k => ?_) (fun k => ?_) q
  · show V c main_arg0 (((cfg0.win 0).blk t).view.emb (ix2 p k)) = _
    refine congrArg _ (funext fun a => Fin.ext ?_)
    match a with
    | ⟨0, _⟩ => show win0_0.index t (0 : Fin 2) * 10000 + 1 * p.val = t.val * 10000 + p.val; omega
    | ⟨1, _⟩ => show win0_0.index t (1 : Fin 2) * 5 + 1 * k.val = k.val; omega
  · show V c main_v20 (((cfg0.win 1).blk t).view.emb (ix2 p k)) = _
    refine congrArg _ (funext fun a => Fin.ext ?_)
    match a with
    | ⟨0, _⟩ => show win0_1.index t (0 : Fin 2) * 10000 + 1 * p.val = t.val * 10000 + p.val; omega
    | ⟨1, _⟩ => show win0_1.index t (1 : Fin 2) * 5 + 1 * k.val = k.val; omega

/-- An index of the array is in point t's block iff each coordinate is in the block's range. -/
theorem mem_blk0 (t : Fin cfg0.N) (i : S100000x5.Idx) :
    i ∈ ((cfg0.win 5).blk t).view.set ↔ ∀ a : Fin 2, win0_5.index t a * S10000x5.size a ≤ (i a).val ∧ (i a).val < win0_5.index t a * S10000x5.size a + S10000x5.size a := by
  show i ∈ ((View.whole main_v22).slice (win0_5.rect t)).set ↔ _
  rw [View.set_slice_whole, Rect.mem_set_unit]
  exact Iff.rfl

/-- Every row lies in the block of the point its row number divided by the block height names. -/
theorem cover0 (i : S100000x5.Idx) : ∃ t : Fin cfg0.N, (cfg0.win 5).flush t = true ∧ i ∈ ((cfg0.win 5).blk t).view.set := by
  have hi0 : (i 0).val < 100000 := (i 0).isLt
  have hi1 : (i 1).val < 5 := (i 1).isLt
  have hN : cfg0.N = 10 := N_0
  let t : Fin cfg0.N := ⟨(i 0).val / 10000, by rw [hN]; omega⟩
  obtain ⟨-, -, -, -, -, -, -, -, -, -, e50, e51⟩ := idx0 t
  have et : t.val = (i 0).val / 10000 := rfl
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 5 ≤ (i 1).val ∧ (i 1).val < win0_5.index t (1 : Fin 2) * 5 + 5; omega

/-- The first launch leaves its result array holding the layer of the arrays it found. -/
theorem final0 (c : Dev nD) : (dat0 V c).arrAt 5 cfg0.N = G0 V c :=
  (dat0 V c).arrAt_eq_of_cover 5 (G0 V c) (fun t _ => flushed0_eq V c t) (cover0)

end Cert.KernelIdeal.Blocks
-- ==== Proof.KernelBlocks1.lean ====
import proofs.«128190_j67259187855641_1_alg».proof.Proof.KernelBlocks0
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.LibDenseRows
open Idealize.ShloMosaic.Pipeline (Dat Cfg Window)

variable (V : (c : Dev nD) → (b : Ref sig .tc) → Buf (Elt Ideal) ((c : Thread nD τ).loc b))

/-! ## The second launch -/

/-- The second launch's result as one array of the arrays the launch finds. -/
def G1 (c : Dev nD) : FVec Ideal S100000x10 .f32 :=
  Cert.Sage.layer (R := 100000) (K := 5) (N := 10) (V c main_v22) (V c main_v35) (V c main_arg6) (V c main_arg7)
    (fun n => (V c main_v36 : S1x10.Idx → EReal) (ix2 (0 : Fin 1) n))

/-- The printed index maps over the grid: the row blocks move with the point, the weights and the bias stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer of the whole arrays. -/
theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S10000x5) hz, View.ld_unit_zero (S := S5x10) hz, View.ld_unit_zero (S := S1x10) hz]
  funext j
  obtain ⟨p, q, rfl⟩ : ∃ (p : Fin 10000) (q : Fin 10), j = ix2 p q := ⟨j 0, j 1, eq_ix2 j⟩
  show k1_pay1 (iblk1 V c 0 t) (iblk1 V c 1 t) (iblk1 V c 2 t) (iblk1 V c 3 t) (iblk1 V c 4 t) (ix2 p q)
    = G1 V c (((cfg1.win 5).blk t).view.emb (ix2 p q))
  refine (Cert.KernelIdeal.Pay.pay1_apply _ _ _ _ _ p q).trans ?_
  obtain ⟨e00, e01, e10, e11, e20, e21, e30, e31, e40, e41, e50, e51⟩ := idx1 t
  have ht : t.val < 10 := lt_of_lt_of_eq t.isLt N_1
  have hr : t.val * 10000 + p.val < 100000 := by have := p.isLt; omega
  have eW : ((cfg1.win 5).blk t).view.emb (ix2 p q) = ix2 (⟨t.val * 10000 + p.val, hr⟩ : Fin 100000) q := by
    funext a; apply Fin.ext
    match a with
    | ⟨0, _⟩ => show win1_5.index t (0 : Fin 2) * 10000 + 1 * p.val = t.val * 10000 + p.val; omega
    | ⟨1, _⟩ => show win1_5.index t (1 : Fin 2) * 10 + 1 * q.val = q.val; omega
  rw [eW]
  have e2 : (iblk1 V c 2 t : S5x10.Idx → EReal) = V c main_arg6 := by
    funext y
    show V c main_arg6 (((cfg1.win 2).blk t).view.emb y) = V c main_arg6 y
    refine congrArg _ (funext fun a => Fin.ext ?_)
    match a with
    | ⟨0, _⟩ => show win1_2.index t (0 : Fin 2) * 5 + 1 * (y 0).val = (y 0).val; omega
    | ⟨1, _⟩ => show win1_2.index t (1 : Fin 2) * 10 + 1 * (y 1).val = (y 1).val; omega
  have e3 : (iblk1 V c 3 t : S5x10.Idx → EReal) = V c main_arg7 := by
    funext y
    show V c main_arg7 (((cfg1.win 3).blk t).view.emb y) = V c main_arg7 y
    refine congrArg _ (funext fun a => Fin.ext ?_)
    match a with
    | ⟨0, _⟩ => show win1_3.index t (0 : Fin 2) * 5 + 1 * (y 0).val = (y 0).val; omega
    | ⟨1, _⟩ => show win1_3.index t (1 : Fin 2) * 10 + 1 * (y 1).val = (y 1).val; omega
  have e4 : (iblk1 V c 4 t : S1x10.Idx → EReal) = V c main_v36 := by
    funext y
    show V c main_v36 (((cfg1.win 4).blk t).view.emb y) = V c main_v36 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 10 + 1 * (y 1).val = (y 1).val; omega
  rw [e2, e3, e4]
  refine entry_of_block (V c main_v22) (V c main_v35) (iblk1 V c 0 t) (iblk1 V c 1 t) (V c main_arg6) (V c main_arg7) _ p
    ⟨t.val * 10000 + p.val, hr⟩ (fun k => ?_) (fun k => ?_) q
  · show V c main_v22 (((cfg1.win 0).blk t).view.emb (ix2 p k)) = _
    refine congrArg _ (funext fun a => Fin.ext ?_)
    match a with
    | ⟨0, _⟩ => show win1_0.index t (0 : Fin 2) * 10000 + 1 * p.val = t.val * 10000 + p.val; omega
    | ⟨1, _⟩ => show win1_0.index t (1 : Fin 2) * 5 + 1 * k.val = k.val; omega
  · show V c main_v35 (((cfg1.win 1).blk t).view.emb (ix2 p k)) = _
    refine congrArg _ (funext fun a => Fin.ext ?_)
    match a with
    | ⟨0, _⟩ => show win1_1.index t (0 : Fin 2) * 10000 + 1 * p.val = t.val * 10000 + p.val; omega
    | ⟨1, _⟩ => show win1_1.index t (1 : Fin 2) * 5 + 1 * k.val = k.val; omega

/-- An index of the array is in point t's block iff each coordinate is in the block's range. -/
theorem mem_blk1 (t : Fin cfg1.N) (i : S100000x10.Idx) :
    i ∈ ((cfg1.win 5).blk t).view.set ↔ ∀ a : Fin 2, win1_5.index t a * S10000x10.size a ≤ (i a).val ∧ (i a).val < win1_5.index t a * S10000x10.size a + S10000x10.size a := by
  show i ∈ ((View.whole main_v37).slice (win1_5.rect t)).set ↔ _
  rw [View.set_slice_whole, Rect.mem_set_unit]
  exact Iff.rfl

/-- Every row lies in the block of the point its row number divided by the block height names. -/
theorem cover1 (i : S100000x10.Idx) : ∃ t : Fin cfg1.N, (cfg1.win 5).flush t = true ∧ i ∈ ((cfg1.win 5).blk t).view.set := by
  have hi0 : (i 0).val < 100000 := (i 0).isLt
  have hi1 : (i 1).val < 10 := (i 1).isLt
  have hN : cfg1.N = 10 := N_1
  let t : Fin cfg1.N := ⟨(i 0).val / 10000, by rw [hN]; omega⟩
  obtain ⟨-, -, -, -, -, -, -, -, -, -, e50, e51⟩ := idx1 t
  have et : t.val = (i 0).val / 10000 := rfl
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 10 ≤ (i 1).val ∧ (i 1).val < win1_5.index t (1 : Fin 2) * 10 + 10; omega

/-- The second launch leaves its result array holding the layer of the arrays it found. -/
theorem final1 (c : Dev nD) : (dat1 V c).arrAt 5 cfg1.N = G1 V c :=
  (dat1 V c).arrAt_eq_of_cover 5 (G1 V c) (fun t _ => flushed1_eq V c t) (cover1)

end Cert.KernelIdeal.Blocks
-- ==== Proof.KernelValue.lean ====
/-
  The kernel program's result buffer, as the two-layer network of its arguments.

  The program computes, on the host, the reciprocal of the clamped in-degree once; gathers and sums the node features
  along the edges and multiplies by that reciprocal; runs the first dense launch; gathers and sums the launch's result
  along the same edges, multiplies by the same reciprocal; and runs the second dense launch. Each launch leaves the
  layer of the arrays it found (the blocks-to-array lemmas), the host stretches are read back operation by operation,
  and the product with the reciprocal is the quotient by the clamped degree. The gather-and-sum and the count are carried
  as they are printed.
-/
import proofs.«128190_j67259187855641_1_alg».proof.Proof.KernelBlocks1

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.KernelIdeal.Blocks Cert.LibDenseRows

/-- Feature rows gathered at each edge's source (a negative source counted from the end) and summed into the edge's
    target, from a zero array. -/
def agg (feat : FVec Ideal S100000x5 .f32) (src dst : IVec S6400000 32) : FVec Ideal S100000x5 .f32 :=
  Host.scatterAdd scatter_S100000x5_S6400000x1_S6400000x5_1_0_0_1
    (broadcastInDim S100000x5 ![] bcast_S_S100000x5 (constant S_ .f32 0x00000000#32))
    (broadcastInDim S6400000x1 ![0] bcast_S6400000_S6400000x1_0 dst)
    (Host.gather gather_S100000x5_S6400000x1_S6400000x5_1_0_n_n_0_1_15 feat
      (broadcastInDim S6400000x1 ![0] bcast_S6400000_S6400000x1_0
        (select (cmpi .slt src (broadcastInDim S6400000 ![] bcast_S_S6400000 (constantI S_ 32 0#32)))
          (addi src (broadcastInDim S6400000 ![] bcast_S_S6400000 (constantI S_ 32 100000#32))) src)))

/-- The number of edges into each target: ones summed into the edge's target, from a zero vector. -/
def deg (dst : IVec S6400000 32) : FVec Ideal S100000 .f32 :=
  Host.scatterAdd scatter_S100000_S6400000x1_S6400000_n_0_0_1
    (broadcastInDim S100000 ![] bcast_S_S100000 (constant S_ .f32 0x00000000#32))
    (broadcastInDim S6400000x1 ![0] bcast_S6400000_S6400000x1_0 dst)
    (broadcastInDim S6400000 ![] bcast_S_S6400000 (constant S_ .f32 0x3F800000#32))

/-- The reciprocal of the clamped degree, computed once. -/
def recip (dst : IVec S6400000 32) : FVec Ideal S100000 .f32 :=
  Host.divf (broadcastInDim S100000 ![] bcast_S_S100000 (constant S_ .f32 0x3F800000#32))
    (maximumf (deg dst) (broadcastInDim S100000 ![] bcast_S_S100000 (constant S_ .f32 0x3F800000#32)))

/-- The neighbour features as the program spells them: the aggregate times a column of reciprocals. -/
def hneigh (feat : FVec Ideal S100000x5 .f32) (src dst : IVec S6400000 32) (rc : FVec Ideal S100000 .f32) : FVec Ideal S100000x5 .f32 :=
  mulf (agg feat src dst)
    (broadcastInDim S100000x5 ![0, 1] bcast_S100000x1_S100000x5_0_1 (broadcastInDim S100000x1 ![0] bcast_S100000_S100000x1_0 rc))

/-- The product with the reciprocal column is the aggregate divided by the clamped degree. -/
theorem hneigh_eq (feat : FVec Ideal S100000x5 .f32) (src dst : IVec S6400000 32) :
    hneigh feat src dst (recip dst) = Cert.Sage.norm (R := 100000) (K := 5) (agg feat src dst) (deg dst) := by
  unfold hneigh recip
  exact Cert.Sage.norm_of_mul (R := 100000) (K := 5) _ _ bcast_S_S100000 bcast_S100000_S100000x1_0 bcast_S100000x1_S100000x5_0_1

/-- The two-layer network of the arguments. -/
def out (x : FVec Ideal S100000x5 .f32) (src dst : IVec S6400000 32) (W3 W4 : FVec Ideal S5x5 .f32) (b1 : FVec Ideal S5 .f32)
    (W6 W7 : FVec Ideal S5x10 .f32) (b2 : FVec Ideal S10 .f32) : FVec Ideal S100000x10 .f32 :=
  Cert.Sage.layer (R := 100000) (K := 5) (N := 10)
    (Cert.Sage.layer (R := 100000) (K := 5) (N := 5) x (Cert.Sage.norm (R := 100000) (K := 5) (agg x src dst) (deg dst)) W3 W4 (fun n => b1 (ix1 n)))
    (Cert.Sage.norm (R := 100000) (K := 5)
      (agg (Cert.Sage.layer (R := 100000) (K := 5) (N := 5) x (Cert.Sage.norm (R := 100000) (K := 5) (agg x src dst) (deg dst)) W3 W4 (fun n => b1 (ix1 n))) src dst)
      (deg dst))
    W6 W7 (fun n => b2 (ix1 n))

variable (m : (ℓ : Loc nD τ sig) → Buf (Elt Ideal) ℓ) (ρ : Dev nD → PrngReg)

/-! ## The host stretch before the first launch, read back -/

set_option maxHeartbeats 8000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
set_option maxHeartbeats 8000000 in
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
set_option maxHeartbeats 8000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
set_option maxHeartbeats 8000000 in
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
set_option maxHeartbeats 8000000 in
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl
set_option maxHeartbeats 8000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
set_option maxHeartbeats 8000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
set_option maxHeartbeats 8000000 in
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
set_option maxHeartbeats 8000000 in
theorem W1_v20 (c : Dev nD) : W1 m ρ c (Proc.devRef .tc main_v20) = hneigh (m ((c : Thread nD τ).loc main_arg0)) (m ((c : Thread nD τ).loc main_arg1)) (m ((c : Thread nD τ).loc main_arg2)) (recip (m ((c : Thread nD τ).loc main_arg2))) := by
  show StableHlo.after hostOps0 (W0 m ρ c) (Proc.devRef .tc main_v20) = _
  after_results_simp <;> rfl
set_option maxHeartbeats 8000000 in
theorem W1_v21 (c : Dev nD) : W1 m ρ c (Proc.devRef .tc main_v21) = shapeCast S1x5 (m ((c : Thread nD τ).loc main_arg5)) shapeCasts_S5_S1x5 := by
  show StableHlo.after hostOps0 (W0 m ρ c) (Proc.devRef .tc main_v21) = _
  after_results_simp <;> rfl
set_option maxHeartbeats 8000000 in
theorem W1_v7 (c : Dev nD) : W1 m ρ c (Proc.devRef .tc main_v7) = recip (m ((c : Thread nD τ).loc main_arg2)) := by
  show StableHlo.after hostOps0 (W0 m ρ c) (Proc.devRef .tc main_v7) = _
  after_results_simp <;> rfl

/-! ## The first launch's result, and what the first launch leaves alone -/

/-- A vector made a one-row matrix reads, along its row, the vector. -/
theorem row_of_cast {a : ℕ} (b : FVec Ideal (Sh1 a) .f32) (h : (Sh1 a).ShapeCasts (Sh2 1 a)) :
    (fun n : Fin a => shapeCast (Sh2 1 a) b h (ix2 (0 : Fin 1) n)) = fun n => b (ix1 n) :=
  funext fun n => shapeCast_a_1a_apply b h 0 n

/-- The hidden features: the first layer of the arguments. -/
abbrev hidden (c : Dev nD) : FVec Ideal S100000x5 .f32 :=
  Cert.Sage.layer (R := 100000) (K := 5) (N := 5) (m ((c : Thread nD τ).loc main_arg0))
    (Cert.Sage.norm (R := 100000) (K := 5) (agg (m ((c : Thread nD τ).loc main_arg0)) (m ((c : Thread nD τ).loc main_arg1)) (m ((c : Thread nD τ).loc main_arg2))) (deg (m ((c : Thread nD τ).loc main_arg2))))
    (m ((c : Thread nD τ).loc main_arg3)) (m ((c : Thread nD τ).loc main_arg4)) (fun n => ((m ((c : Thread nD τ).loc main_arg5)) : S5.Idx → EReal) (ix1 n))

theorem W2_v22 (c : Dev nD) : W2 m ρ c (Proc.devRef .tc main_v22) = hidden m c := by
  refine (W2_arr m ρ c 5).trans ((final0 (V1 m ρ) c).trans ?_)
  unfold G0
  rw [show V1 m ρ c main_arg0 = _ from W1_arg0 m ρ c, show V1 m ρ c main_v20 = _ from W1_v20 m ρ c,
    show V1 m ρ c main_arg3 = _ from W1_arg3 m ρ c, show V1 m ρ c main_arg4 = _ from W1_arg4 m ρ c,
    show V1 m ρ c main_v21 = _ from W1_v21 m ρ c, hneigh_eq]
  exact congrArg (Cert.Sage.layer (R := 100000) (K := 5) (N := 5) _ _ _ _) (row_of_cast (a := 5) _ _)

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_v7 (c : Dev nD) : W2 m ρ c (Proc.devRef .tc main_v7) = recip (m ((c : Thread nD τ).loc main_arg2)) :=
  (W2_of_ne m ρ c main_v7 (by decide)).trans (W1_v7 m ρ c)

/-! ## The host stretch between the launches, read back -/

set_option maxHeartbeats 8000000 in
theorem W3_v22 (c : Dev nD) : W3 m ρ c (Proc.devRef .tc main_v22) = W2 m ρ c (Proc.devRef .tc main_v22) := by
  show StableHlo.after hostOps1 (W2 m ρ c) (Proc.devRef .tc main_v22) = _
  after_results_simp <;> rfl
set_option maxHeartbeats 8000000 in
theorem W3_arg6 (c : Dev nD) : W3 m ρ c (Proc.devRef .tc main_arg6) = W2 m ρ c (Proc.devRef .tc main_arg6) := by
  show StableHlo.after hostOps1 (W2 m ρ c) (Proc.devRef .tc main_arg6) = _
  after_results_simp <;> rfl
set_option maxHeartbeats 8000000 in
theorem W3_arg7 (c : Dev nD) : W3 m ρ c (Proc.devRef .tc main_arg7) = W2 m ρ c (Proc.devRef .tc main_arg7) := by
  show StableHlo.after hostOps1 (W2 m ρ c) (Proc.devRef .tc main_arg7) = _
  after_results_simp <;> rfl
set_option maxHeartbeats 8000000 in
theorem W3_v35 (c : Dev nD) : W3 m ρ c (Proc.devRef .tc main_v35) = hneigh (W2 m ρ c (Proc.devRef .tc main_v22)) (W2 m ρ c (Proc.devRef .tc main_arg1)) (W2 m ρ c (Proc.devRef .tc main_arg2)) (W2 m ρ c (Proc.devRef .tc main_v7)) := by
  show StableHlo.after hostOps1 (W2 m ρ c) (Proc.devRef .tc main_v35) = _
  after_results_simp <;> rfl
set_option maxHeartbeats 8000000 in
theorem W3_v36 (c : Dev nD) : W3 m ρ c (Proc.devRef .tc main_v36) = shapeCast S1x10 (W2 m ρ c (Proc.devRef .tc main_arg8)) shapeCasts_S10_S1x10 := by
  show StableHlo.after hostOps1 (W2 m ρ c) (Proc.devRef .tc main_v36) = _
  after_results_simp <;> rfl

/-! ## The result -/

/-- The program's result buffer at the last segment boundary is the two-layer network of the arguments. -/
theorem result_eq (c : Dev nD) : W4 m ρ c (Proc.devRef .tc main_v37)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((final1 (V3 m ρ) c).trans ?_)
  unfold G1
  rw [show V3 m ρ c main_v22 = _ from W3_v22 m ρ c, show V3 m ρ c main_v35 = _ from W3_v35 m ρ c,
    show V3 m ρ c main_arg6 = _ from W3_arg6 m ρ c, show V3 m ρ c main_arg7 = _ from W3_arg7 m ρ c,
    show V3 m ρ c main_v36 = _ from W3_v36 m ρ c,
    W2_v22, W2_arg1, W2_arg2, W2_arg6, W2_arg7, W2_arg8, W2_v7, hneigh_eq]
  exact congrArg (Cert.Sage.layer (R := 100000) (K := 5) (N := 10) _ _ _ _) (row_of_cast (a := 10) _ _)

end Cert.KernelIdeal.KValue
-- ==== Proof.RefSide.lean ====
/-
  The reference program's result, as the two-layer network of its arguments.

  The reference gathers a feature row per edge at the edge's source, sums the rows into the edge's target, counts
  the edges per target, divides the sums by the clamped counts, and applies a dense layer with the logistic function
  written out; then does the same again on the first layer's result. The gather-and-sum and the count are carried as
  they are printed: nothing here looks inside them.
-/
import proofs.«128190_j67259187855641_1_alg».proof.Proof.Gen.ReferenceIdeal.Run
import proofs.«128190_j67259187855641_1_alg».proof.Proof.SageSpec

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.LibDenseRows

/-- Feature rows gathered at each edge's source (a negative source counted from the end) and summed into the edge's
    target, from a zero array. -/
def agg (feat : FVec Ideal S100000x5 .f32) (src dst : IVec S6400000 32) : FVec Ideal S100000x5 .f32 :=
  Host.scatterAdd scatter_S100000x5_S6400000x1_S6400000x5_1_0_0_1
    (broadcastInDim S100000x5 ![] bcast_S_S100000x5 (constant S_ .f32 0x00000000#32))
    (broadcastInDim S6400000x1 ![0] bcast_S6400000_S6400000x1_0 dst)
    (Host.gather gather_S100000x5_S6400000x1_S6400000x5_1_0_n_n_0_1_15 feat
      (broadcastInDim S6400000x1 ![0] bcast_S6400000_S6400000x1_0
        (select (cmpi .slt src (broadcastInDim S6400000 ![] bcast_S_S6400000 (constantI S_ 32 0#32)))
          (addi src (broadcastInDim S6400000 ![] bcast_S_S6400000 (constantI S_ 32 100000#32))) src)))

/-- The number of edges into each target: ones summed into the edge's target, from a zero vector. -/
def deg (dst : IVec S6400000 32) : FVec Ideal S100000 .f32 :=
  Host.scatterAdd scatter_S100000_S6400000x1_S6400000_n_0_0_1
    (broadcastInDim S100000 ![] bcast_S_S100000 (constant S_ .f32 0x00000000#32))
    (broadcastInDim S6400000x1 ![0] bcast_S6400000_S6400000x1_0 dst)
    (broadcastInDim S6400000 ![] bcast_S_S6400000 (constant S_ .f32 0x3F800000#32))

/-- The two-layer network of the arguments. -/
def out (x : FVec Ideal S100000x5 .f32) (src dst : IVec S6400000 32) (W3 W4 : FVec Ideal S5x5 .f32) (b1 : FVec Ideal S5 .f32)
    (W6 W7 : FVec Ideal S5x10 .f32) (b2 : FVec Ideal S10 .f32) : FVec Ideal S100000x10 .f32 :=
  Cert.Sage.layer (R := 100000) (K := 5) (N := 10)
    (Cert.Sage.layer (R := 100000) (K := 5) (N := 5) x (Cert.Sage.norm (R := 100000) (K := 5) (agg x src dst) (deg dst)) W3 W4 (fun n => b1 (ix1 n)))
    (Cert.Sage.norm (R := 100000) (K := 5)
      (agg (Cert.Sage.layer (R := 100000) (K := 5) (N := 5) x (Cert.Sage.norm (R := 100000) (K := 5) (agg x src dst) (deg dst)) W3 W4 (fun n => b1 (ix1 n))) src dst)
      (deg dst))
    W6 W7 (fun n => b2 (ix1 n))

/-- The reference's result term is the two-layer network of its arguments. -/
theorem res_eq (m : (ℓ : Loc nD τ sig) → Buf (Elt Ideal) ℓ) (c : Dev nD) :
    res_main_v61 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold out
  rw [← Cert.Sage.layer_of_host (R := 100000) (K := 5) (N := 10) _ _ _ _ (m ((c.tc : Thread nD τ).loc main_arg8)) bcast_S_S100000x10 bcast_S10_S1x10_1 bcast_S1x10_S100000x10_0_1]
  rw [← Cert.Sage.layer_of_host (R := 100000) (K := 5) (N := 5) _ _ _ _ (m ((c.tc : Thread nD τ).loc main_arg5)) bcast_S_S100000x5 bcast_S5_S1x5_1 bcast_S1x5_S100000x5_0_1]
  rw [← Cert.Sage.norm_of_div (R := 100000) (K := 5) _ _ bcast_S_S100000 bcast_S100000_S100000x1_0 bcast_S100000x1_S100000x5_0_1]
  rw [← Cert.Sage.norm_of_div (R := 100000) (K := 5) _ _ bcast_S_S100000 bcast_S100000_S100000x1_0 bcast_S100000x1_S100000x5_0_1]
  unfold res_main_v61 agg deg
  rfl

end Cert.ReferenceIdeal.RefValue
-- ==== Proof.lean ====
/-
  A two-layer mean-aggregating graph network: the kernel program against its reference, over the extended reals.

  Both programs compute  out = L₂(h, A(h)/d),  h = L₁(x, A(x)/d),  where A sums feature rows along the edges (gather at
  the source, sum into the target), d = max(deg, 1) is the clamped in-degree, and a layer is
  L(X, H) = σ(X·Ws + H·Wn + b) with σ the logistic function. They differ in three spellings only:
  the kernel multiplies A by the reciprocal 1/d computed once where the reference divides by d — equal at every
  extended real because d ≥ 1 is not zero; the kernel's dense layers run block by block on ten blocks of rows through
  products into zero accumulators where the reference uses one dot_general — the same sums over the contracted
  coordinate; and the kernel's logistic is one operation where the reference writes 1/(1 + exp(-z)) — the same function
  by definition. No finiteness of the inputs is used: the precondition is never opened.

  The frames of the two kernel programs are the generated ones; the reference's frame is its generated run with the
  result dropped; nothing was rewritten by the idealization, so its sanctioning claim is trivial.
-/
import proofs.«128190_j67259187855641_1_alg».proof.Defs
import proofs.«128190_j67259187855641_1_alg».proof.Proof.Gen.Kernel
import proofs.«128190_j67259187855641_1_alg».proof.Proof.Gen.Kernel.Skeleton
import proofs.«128190_j67259187855641_1_alg».proof.Proof.Gen.Kernel.Launch
import proofs.«128190_j67259187855641_1_alg».proof.Proof.Gen.Kernel.Points
import proofs.«128190_j67259187855641_1_alg».proof.Proof.Gen.Kernel.Frame
import proofs.«128190_j67259187855641_1_alg».proof.Proof.Gen.KernelIdeal
import proofs.«128190_j67259187855641_1_alg».proof.Proof.Gen.KernelIdeal.Skeleton
import proofs.«128190_j67259187855641_1_alg».proof.Proof.Gen.KernelIdeal.Launch
import proofs.«128190_j67259187855641_1_alg».proof.Proof.Gen.KernelIdeal.Points
import proofs.«128190_j67259187855641_1_alg».proof.Proof.Gen.KernelIdeal.Frame
import proofs.«128190_j67259187855641_1_alg».proof.Proof.Gen.ReferenceIdeal
import proofs.«128190_j67259187855641_1_alg».proof.Proof.Gen.ReferenceIdeal.Run
import proofs.«128190_j67259187855641_1_alg».proof.Proof.Gen.Pre_finite_inputs
import proofs.«128190_j67259187855641_1_alg».proof.Proof.KernelRun
import proofs.«128190_j67259187855641_1_alg».proof.Proof.KernelValue
import proofs.«128190_j67259187855641_1_alg».proof.Proof.RefSide
import Idealize.ShloMosaic.Adequacy
import Idealize.ShloMosaic.Init

noncomputable section

namespace Cert.Proof

open Idealize.ShloMosaic Idealize.ShloMosaic.TcCoe Idealize.SL.Sem

/-- The two programs' networks are one function: they are the same composition of the layer, the normalised aggregate,
    the gather-and-sum and the count, written over each program's own copies of the same shape records. -/
theorem out_eq (x : FVec Ideal Cert.KernelIdeal.S100000x5 .f32) (src dst : IVec Cert.KernelIdeal.S6400000 32)
    (W3 W4 : FVec Ideal Cert.KernelIdeal.S5x5 .f32) (b1 : FVec Ideal Cert.KernelIdeal.S5 .f32)
    (W6 W7 : FVec Ideal Cert.KernelIdeal.S5x10 .f32) (b2 : FVec Ideal Cert.KernelIdeal.S10 .f32) :
    Cert.ReferenceIdeal.RefValue.out x src dst W3 W4 b1 W6 W7 b2 = Cert.KernelIdeal.KValue.out x src dst W3 W4 b1 W6 W7 b2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the two-layer network of their (agreeing) arguments in the result buffer. -/
theorem algebraic : Cert.algebraic_KernelIdeal_ReferenceIdeal := by
  intro m ρ m' ρ' _ hagree
  refine ⟨fun c => Cert.KernelIdeal.KValue.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.result_eq m ρ c), (h c).2⟩)
      (Cert.KernelIdeal.GenP.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact out_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
